-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x1 : Shape := ⟨2, ![4096, 1]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_arg15 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  main_v78

def fn_part3 {F : FTy → Type} [FloatOps F] (main_arg11 : FVec F S2048x2048 .f32) (main_arg12 : FVec F S2048 .f32) (main_arg13 : FVec F S2048 .f32) (main_arg14 : FVec F S2048 .f32) (main_arg15 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x2048 .f32) (main_arg1 : FVec F S4096x1 .f32) (main_arg2 : FVec F S4096x2048 .f32) (main_arg3 : FVec F S4096x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x2048 : Shape := ⟨2, ![4096, 2048]⟩
abbrev S4096x1 : Shape := ⟨2, ![4096, 1]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x128 : Shape := ⟨2, ![512, 128]⟩
abbrev S512x1 : Shape := ⟨2, ![512, 1]⟩
abbrev S128x2048 : Shape := ⟨2, ![128, 2048]⟩
abbrev S1x128 : Shape := ⟨2, ![1, 128]⟩

abbrev nBuf : Space → Nat
  | .hbm => 32
  | .vmem => 38
  | .smem => 0
  | _ => 0

abbrev bufTy : (tb : Table) → Fin (tcTables nBuf tb) → BufTy
  | .hbm, ⟨0, _⟩ => ⟨S4096x2048, .f32⟩
  | .hbm, ⟨1, _⟩ => ⟨S4096x1, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S4096x2048, .bf16⟩
  | .hbm, ⟨17, _⟩ => ⟨S4096x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1, .f32⟩
  | .local _ .vmem, ⟨9, _⟩ => ⟨S512x1, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  broadcasts_S512x1_S512x128 : S512x1.Broadcasts S512x128
  dot_S512x2048_S128x2048_S512x128_1_1_0_0_n_n_wf : DotDims.WF S512x2048 S128x2048 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x2048.size a
  hwx0_2 : ∀ i : grid0.Coords, EltTy.bits .f32 = 32 ∨ (Rect.block (s := S4096x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x2048.size a
  hwx0_3 : ∀ i : grid0.Coords, EltTy.bits .f32 = 32 ∨ (Rect.block (s := S4096x2048) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .bf16 = 32 ∨ (Rect.block (s := S2048x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .bf16 = 32 ∨ (Rect.block (s := S2048x2048) S128x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .bf16 = 32 ∨ (Rect.block (s := S2048x2048) S128x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .bf16 = 32 ∨ (Rect.block (s := S2048x2048) S128x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .bf16 = 32 ∨ (Rect.block (s := S2048x2048) S128x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .bf16 = 32 ∨ (Rect.block (s := S2048x2048) S128x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .bf16 = 32 ∨ (Rect.block (s := S2048x2048) S128x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .bf16 = 32 ∨ (Rect.block (s := S2048x2048) S128x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x2048.size a
  hwx0_15 : ∀ i : grid0.Coords, EltTy.bits .f32 = 32 ∨ (Rect.block (s := S1x2048) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x2048.size a
  hwx0_16 : ∀ i : grid0.Coords, EltTy.bits .f32 = 32 ∨ (Rect.block (s := S1x2048) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x128.size a ≤ S4096x2048.size a
  hwx0_17 : ∀ i : grid0.Coords, EltTy.bits .f32 = 32 ∨ (Rect.block (s := S4096x2048) S512x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S4096x2048.size a
  hwx0_18 : ∀ i : grid0.Coords, EltTy.bits .f32 = 32 ∨ (Rect.block (s := S4096x2048) S512x128.size (cc0_transform_18 i) (hinb0_18 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9) S128x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_0) S512x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_1) S512x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x1 : Shape := ⟨2, ![4096, 1]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S8192x2048, .f32⟩
  | .hbm, ⟨17, _⟩ => ⟨S8192x2048, .f32⟩
  | .hbm, ⟨18, _⟩ => ⟨S8192, .f32⟩
  | .hbm, ⟨19, _⟩ => ⟨S2048x8192, .f32⟩
  | .hbm, ⟨20, _⟩ => ⟨S4096x8192, .f32⟩
  | .hbm, ⟨21, _⟩ => ⟨S2048x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x2048, .f32⟩
  | .hbm, ⟨75, _⟩ => ⟨S4096x2048, .f32⟩
  | .hbm, ⟨76, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S_S4096x1 : S_.BroadcastsInDim S4096x1 (![] : Fin 0 → Fin S4096x1.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LibMatmulNT.lean ====
/-
  Two general facts about rank-2 blocks at the ideal values, stated for any extents.

  * A kernel's matrix product of an m×k block by an n×k block, the right operand contracted on its LAST axis, into the
    zero accumulator, read at entry (a, b), is the plain sum over the contracted coordinate c of A(a, c) · B(b, c),
    whatever contraction precision the operation carries: the ideal product is exact, so nothing of the chunking or
    the precision is left in it.
  * A one-column block [m, 1] broadcast across n columns, read at (a, b), is the column's entry at row a.
-/
import Idealize.ShloMosaic.PureOps.Ideal.Laws
import Idealize.ShloMosaic.Lib.ValueIdx
import Idealize.ShloMosaic.Lib.Pipeline.Value

noncomputable section

open scoped BigOperators

namespace Cert.LibMatmulNT

open Idealize.ShloMosaic Idealize.ShloMosaic.ValueIdx

/-- The product of an m×k block by an n×k block (right operand contracted on its last axis) into the zero
    accumulator, at the ideal values, read at (a, b): Σ_c A(a, c) · B(b, c). -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply,
    ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A one-column block broadcast across the columns, read at (a, b), is the column at row a. -/
theorem colBroadcast_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a 0) := by
  refine broadcastTo_apply x h (ix2 a b) (ix2 a 0) fun ax => ?_
  match ax with
  | ⟨0, _⟩ =>
    show a.val = if m = 1 then 0 else a.val
    split
    · have := a.isLt; omega
    · rfl
  | ⟨1, _⟩ => rfl

end Cert.LibMatmulNT

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Spec.lean ====
/-
  The LSTM cell with a per-row blend mask, as ONE function of the sixteen argument arrays, index by index, on the
  extended reals.

  For a batch row r and a hidden column q, each of the four gates has the pre-activation

      pre W U b (r, q) = Σ_k x(r, k) · W(q, k)  +  Σ_k h(r, k) · U(q, k)  +  b(q),

  the input row against row q of the input weights, the previous hidden row against row q of the recurrent weights,
  and the bias at q, summed in that order. With σ the logistic function 1 / (1 + e^(-z)):

      cell (r, q)   = σ(pre_i) · tanh(pre_c) + σ(pre_f) · c_prev(r, q)
      hidden (r, q) = σ(pre_o) · tanh(cell (r, q))

  and the two results keep the previous state where the row's mask μ(r) is 0 and take the new one where it is 1, by
  the affine blend with the literal 1.0:

      c_out (r, q) = cell · μ(r) + c_prev(r, q) · (1 − μ(r)),   h_out (r, q) = hidden · μ(r) + h_prev(r, q) · (1 − μ(r)).

  Nothing here needs a law of arithmetic: both programs compute these very terms, the kernel block by block and the
  reference on the four weight matrices stacked; the other modules only locate each program's entries in them.
-/
import Idealize.ShloMosaic.PureOps.Ideal
import Idealize.ShloMosaic.Lib.ValueIdx

noncomputable section

open scoped BigOperators

namespace Cert.LstmSpec

open Idealize.ShloMosaic Idealize.ShloMosaic.ValueIdx

/-- The batch-by-feature arrays (input, previous hidden and cell state, both results). -/
abbrev SAct : Shape := ⟨2, ![4096, 2048]⟩
/-- One gate's weight matrix: a row per hidden column. -/
abbrev SWt : Shape := ⟨2, ![2048, 2048]⟩
/-- One gate's bias. -/
abbrev SBias : Shape := ⟨1, ![2048]⟩
/-- The per-row mask, a column. -/
abbrev SMask : Shape := ⟨2, ![4096, 1]⟩

/-- The literal 1.0 of the blend `1 − μ`, kept as its word: both programs carry the same word. -/
abbrev one : EReal := Ideal.ofBits .f32 0x3F800000#32

/-- One gate's pre-activation at batch row `r`, hidden column `q`. -/
def pre (x h : SAct.Idx → EReal) (W U : SWt.Idx → EReal) (b : SBias.Idx → EReal) (r : Fin 4096) (q : Fin 2048) : EReal :=
  (∑ k : Fin 2048, x (ix2 r k) * W (ix2 q k)) + (∑ k : Fin 2048, h (ix2 r k) * U (ix2 q k)) + b (ix1 q)

/-- The new cell state before the blend. -/
def cell (x h cPrev : SAct.Idx → EReal) (Wi Wf Wc Ui Uf Uc : SWt.Idx → EReal) (bi bf bc : SBias.Idx → EReal)
    (r : Fin 4096) (q : Fin 2048) : EReal :=
  Ideal.logistic (pre x h Wi Ui bi r q) * Ideal.tanh (pre x h Wc Uc bc r q)
    + Ideal.logistic (pre x h Wf Uf bf r q) * cPrev (ix2 r q)

/-- The new hidden state before the blend. -/
def hidden (x h cPrev : SAct.Idx → EReal) (Wi Wf Wo Wc Ui Uf Uo Uc : SWt.Idx → EReal) (bi bf bo bc : SBias.Idx → EReal)
    (r : Fin 4096) (q : Fin 2048) : EReal :=
  Ideal.logistic (pre x h Wo Uo bo r q) * Ideal.tanh (cell x h cPrev Wi Wf Wc Ui Uf Uc bi bf bc r q)

/-- The first result: the cell state, blended with the previous one by the row's mask. -/
def cOut (x : SAct.Idx → EReal) (μ : SMask.Idx → EReal) (cPrev h : SAct.Idx → EReal)
    (Wi Wf Wc Ui Uf Uc : SWt.Idx → EReal) (bi bf bc : SBias.Idx → EReal) : SAct.Idx → EReal := fun i =>
  cell x h cPrev Wi Wf Wc Ui Uf Uc bi bf bc (i 0) (i 1) * μ (ix2 (i 0) 0)
    + cPrev i * (one - μ (ix2 (i 0) 0))

/-- The second result: the hidden state, blended with the previous one by the row's mask. -/
def hOut (x : SAct.Idx → EReal) (μ : SMask.Idx → EReal) (cPrev h : SAct.Idx → EReal)
    (Wi Wf Wo Wc Ui Uf Uo Uc : SWt.Idx → EReal) (bi bf bo bc : SBias.Idx → EReal) : SAct.Idx → EReal := fun i =>
  hidden x h cPrev Wi Wf Wo Wc Ui Uf Uo Uc bi bf bo bc (i 0) (i 1) * μ (ix2 (i 0) 0)
    + h i * (one - μ (ix2 (i 0) 0))

end Cert.LstmSpec

end
-- ==== Proof.KernelTile.lean ====
/-
  One grid point's arithmetic, read at an entry of its 512 × 128 tile.

  At a grid point the body holds a 512-row slab X of the input and H of the previous hidden state (all 2048 features),
  for each gate a 128-row slab of its input weights and of its recurrent weights, a 1 × 128 piece of its bias, the
  512 × 128 tiles of the previous hidden and cell state, and the 512 × 1 piece of the mask. Each gate's pre-activation at
  tile entry (p, q) is

      Σ_k X(p, k) · W(q, k) + Σ_k H(p, k) · U(q, k) + b(0, q):

  the two products contract the slabs' last axes (the right operand is used transposed) into a zero accumulator, and the
  bias row is broadcast down the 512 rows. The gates, the new cell and hidden state and the two blends with the mask
  column (broadcast across the 128 columns) are entrywise.
-/
import proofs.«116664_j87969520156813_1_alg».proof.Proof.Gen.KernelIdeal.Skeleton
import proofs.«116664_j87969520156813_1_alg».proof.Proof.LibMatmulNT
import proofs.«116664_j87969520156813_1_alg».proof.Proof.LibMatmulPlain
import proofs.«116664_j87969520156813_1_alg».proof.Proof.Spec
import Idealize.ShloMosaic.Lib.Pipeline.Value
import Idealize.ShloMosaic.Lib.ValueIdx

noncomputable section

open scoped BigOperators

namespace Cert.KernelIdeal.Tile

open Idealize.ShloMosaic Idealize.ShloMosaic.ValueIdx Cert.KernelIdeal Cert.KernelIdeal.Gen

/-- One gate's pre-activation at tile entry (p, q), from the slabs the point holds. -/
def pre (X H : S512x2048.Idx → EReal) (W U : S128x2048.Idx → EReal) (b : S1x128.Idx → EReal) (p : Fin 512) (q : Fin 128) : EReal :=
  (∑ k : Fin 2048, X (ix2 p k) * W (ix2 q k)) + (∑ k : Fin 2048, H (ix2 p k) * U (ix2 q k)) + b (ix2 0 q)

/-- The new cell state at tile entry (p, q), before the blend. -/
def cell (X H : S512x2048.Idx → EReal) (Wi Wf Wc Ui Uf Uc : S128x2048.Idx → EReal) (bi bf bc : S1x128.Idx → EReal)
    (C : S512x128.Idx → EReal) (p : Fin 512) (q : Fin 128) : EReal :=
  Ideal.logistic (pre X H Wi Ui bi p q) * Ideal.tanh (pre X H Wc Uc bc p q) + Ideal.logistic (pre X H Wf Uf bf p q) * C (ix2 p q)

/-- The hyperbolic tangent and the logistic function of a block act entry by entry. -/
theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

/-- A slab product into the zero accumulator at (p, q): the sum over the 2048 features of the two rows' products. -/
theorem slabProduct_apply (A : FVec Ideal S512x2048 .bf16) (B : FVec Ideal S128x2048 .bf16) (p : Fin 512) (q : Fin 128) :
    matmul dot_S512x2048_S128x2048_S512x128_1_1_0_0_n_n none A B (constant S512x128 .f32 0x00000000#32) (ix2 p q)
      = ∑ k : Fin 2048, A (ix2 p k) * B (ix2 q k) :=
  Cert.LibMatmulNT.matmul_transposedRhs_zero_apply none A B p q

/-- The input gate's pre-activation payload at (p, q). -/
theorem gateI_apply (x0 x1 : Vec Ideal S512x2048 .bf16) (w u : Vec Ideal S128x2048 .bf16) (b : Vec Ideal S1x128 .f32)
    (p : Fin 512) (q : Fin 128) : k0_pay3 (F := Ideal) x0 x1 w u b (ix2 p q) = pre x0 x1 w u b p q := by
  unfold k0_pay3 k0_pay1 k0_pay2 pre
  simp only [shapeCast_self]
  rw [addf_apply, addf_apply, slabProduct_apply, slabProduct_apply, Cert.LibMatmulPlain.rowBroadcast_apply]

/-- The forget gate's pre-activation payload is the same term of its own slabs. -/
theorem gateF_apply (x0 x1 : Vec Ideal S512x2048 .bf16) (w u : Vec Ideal S128x2048 .bf16) (b : Vec Ideal S1x128 .f32)
    (p : Fin 512) (q : Fin 128) : k0_pay4 (F := Ideal) x0 x1 w u b (ix2 p q) = pre x0 x1 w u b p q :=
  gateI_apply x0 x1 w u b p q

/-- The cell-state payload at (p, q), over the two gates' pre-activations already formed. -/
theorem cell_apply (v1 v3 : FVec Ideal S512x2048 .bf16) (v14 v25 : FVec Ideal S512x128 .f32) (w u : Vec Ideal S128x2048 .bf16)
    (b : Vec Ideal S1x128 .f32) (c : Vec Ideal S512x128 .f32) (p : Fin 512) (q : Fin 128) :
    k0_pay7 (F := Ideal) v1 v3 v14 v25 w u b c (ix2 p q)
      = Ideal.logistic (v14 (ix2 p q)) * Ideal.tanh (pre v1 v3 w u b p q) + Ideal.logistic (v25 (ix2 p q)) * c (ix2 p q) := by
  unfold k0_pay7 pre
  simp only [shapeCast_self]
  rw [addf_apply, mulf_apply, mulf_apply, logistic_apply, logistic_apply, tanh_apply, addf_apply, addf_apply,
    slabProduct_apply, slabProduct_apply, Cert.LibMatmulPlain.rowBroadcast_apply]

/-- The body's two re-laid slabs are the slabs: a cast to the same shape changes nothing. -/
theorem slabX_eq (x0 : Vec Ideal S512x2048 .bf16) : k0_pay1 (F := Ideal) x0 = x0 := shapeCast_self x0 _
theorem slabH_eq (x1 : Vec Ideal S512x2048 .bf16) : k0_pay2 (F := Ideal) x1 = x1 := shapeCast_self x1 _

/-- The output gate's two slab products at (p, q). -/
theorem prodX_apply (x0 : Vec Ideal S512x2048 .bf16) (w : Vec Ideal S128x2048 .bf16) (p : Fin 512) (q : Fin 128) :
    k0_pay5 (F := Ideal) x0 w (ix2 p q) = ∑ k : Fin 2048, x0 (ix2 p k) * w (ix2 q k) := by
  unfold k0_pay5 k0_pay1
  simp only [shapeCast_self]
  exact slabProduct_apply x0 w p q
theorem prodH_apply (x1 : Vec Ideal S512x2048 .bf16) (u : Vec Ideal S128x2048 .bf16) (p : Fin 512) (q : Fin 128) :
    k0_pay6 (F := Ideal) x1 u (ix2 p q) = ∑ k : Fin 2048, x1 (ix2 p k) * u (ix2 q k) := by
  unfold k0_pay6 k0_pay2
  simp only [shapeCast_self]
  exact slabProduct_apply x1 u p q

/-- The first result's payload at (p, q): the cell state blended with the previous one by the row's mask. -/
theorem cBlend_apply (v1 v3 : FVec Ideal S512x2048 .bf16) (v14 v25 : FVec Ideal S512x128 .f32) (w u : Vec Ideal S128x2048 .bf16)
    (b : Vec Ideal S1x128 .f32) (c : Vec Ideal S512x128 .f32) (μ : Vec Ideal S512x1 .f32) (p : Fin 512) (q : Fin 128) :
    k0_pay8 (F := Ideal) v1 v3 v14 v25 w u b c μ (ix2 p q)
      = k0_pay7 (F := Ideal) v1 v3 v14 v25 w u b c (ix2 p q) * μ (ix2 p 0) + c (ix2 p q) * (Cert.LstmSpec.one - μ (ix2 p 0)) := by
  unfold k0_pay8
  rw [addf_apply, mulf_apply, mulf_apply, Cert.LibMatmulNT.colBroadcast_apply, Cert.LibMatmulNT.colBroadcast_apply]
  rfl

/-- The second result's payload at (p, q): the hidden state blended with the previous one by the row's mask. -/
theorem hBlend_apply (v1 v3 : FVec Ideal S512x2048 .bf16) (v14 v25 v28 v31 : FVec Ideal S512x128 .f32) (bo : Vec Ideal S1x128 .f32)
    (w u : Vec Ideal S128x2048 .bf16) (b : Vec Ideal S1x128 .f32) (c : Vec Ideal S512x128 .f32) (μ : Vec Ideal S512x1 .f32)
    (hp : Vec Ideal S512x128 .f32) (p : Fin 512) (q : Fin 128) :
    k0_pay9 (F := Ideal) v1 v3 v14 v25 v28 v31 bo w u b c μ hp (ix2 p q)
      = Ideal.logistic (v28 (ix2 p q) + v31 (ix2 p q) + bo (ix2 0 q)) * Ideal.tanh (k0_pay7 (F := Ideal) v1 v3 v14 v25 w u b c (ix2 p q))
          * μ (ix2 p 0) + hp (ix2 p q) * (Cert.LstmSpec.one - μ (ix2 p 0)) := by
  unfold k0_pay9
  simp only [shapeCast_self]
  rw [addf_apply, mulf_apply, mulf_apply, mulf_apply, logistic_apply, tanh_apply, addf_apply, addf_apply,
    Cert.LibMatmulPlain.rowBroadcast_apply, Cert.LibMatmulNT.colBroadcast_apply, Cert.LibMatmulNT.colBroadcast_apply]
  rfl

/-! ## A tile entry's pre-activation is an array entry's

When the slabs' entries the tile reads at (p, q) are the arrays' entries the specification reads at (R, Q) — row p of a
512-row slab is row R of its array, row q of a 128-row weight slab is row Q of its matrix, entry q of the bias piece is
entry Q of the bias —, the tile's pre-activation, cell state and hidden state at (p, q) are the specification's at (R, Q). -/

theorem pre_eq (X H : S512x2048.Idx → EReal) (W U : S128x2048.Idx → EReal) (b : S1x128.Idx → EReal)
    (x h : Cert.LstmSpec.SAct.Idx → EReal) (Wg Ug : Cert.LstmSpec.SWt.Idx → EReal) (bg : Cert.LstmSpec.SBias.Idx → EReal)
    (p : Fin 512) (q : Fin 128) (R : Fin 4096) (Q : Fin 2048)
    (hX : ∀ k, X (ix2 p k) = x (ix2 R k)) (hH : ∀ k, H (ix2 p k) = h (ix2 R k))
    (hW : ∀ k, W (ix2 q k) = Wg (ix2 Q k)) (hU : ∀ k, U (ix2 q k) = Ug (ix2 Q k)) (hb : b (ix2 0 q) = bg (ix1 Q)) :
    pre X H W U b p q = Cert.LstmSpec.pre x h Wg Ug bg R Q := by
  unfold pre Cert.LstmSpec.pre
  simp only [hX, hH, hW, hU, hb]

theorem cell_eq (X H : S512x2048.Idx → EReal) (Wi Wf Wc Ui Uf Uc : S128x2048.Idx → EReal) (bi bf bc : S1x128.Idx → EReal)
    (C : S512x128.Idx → EReal)
    (x h cPrev : Cert.LstmSpec.SAct.Idx → EReal) (Wi' Wf' Wc' Ui' Uf' Uc' : Cert.LstmSpec.SWt.Idx → EReal)
    (bi' bf' bc' : Cert.LstmSpec.SBias.Idx → EReal)
    (p : Fin 512) (q : Fin 128) (R : Fin 4096) (Q : Fin 2048)
    (hi : pre X H Wi Ui bi p q = Cert.LstmSpec.pre x h Wi' Ui' bi' R Q)
    (hf : pre X H Wf Uf bf p q = Cert.LstmSpec.pre x h Wf' Uf' bf' R Q)
    (hc : pre X H Wc Uc bc p q = Cert.LstmSpec.pre x h Wc' Uc' bc' R Q)
    (hC : C (ix2 p q) = cPrev (ix2 R Q)) :
    cell X H Wi Wf Wc Ui Uf Uc bi bf bc C p q = Cert.LstmSpec.cell x h cPrev Wi' Wf' Wc' Ui' Uf' Uc' bi' bf' bc' R Q := by
  unfold cell Cert.LstmSpec.cell
  rw [hi, hf, hc, hC]

end Cert.KernelIdeal.Tile

end
-- ==== Proof.KernelValue.lean ====
/-
  From the tiles to the two whole results.

  The grid has 8 × 16 points. At point (I, J) the body holds rows 512·I … 512·I + 511 of the input, of the previous
  hidden state (twice: once for the products, once for the blend), of the previous cell state and of the mask, rows
  128·J … 128·J + 127 of each of the eight weight matrices, and entries 128·J … 128·J + 127 of each bias; it writes the
  512 × 128 tile at block (I, J) of both results. So tile entry (p, q) is array entry (512·I + p, 128·J + q), and every
  slab entry the tile's arithmetic reads is the array entry the specification reads there: the tile's value is the
  specification's at that entry. The host operations before the call only change the float format of the operands of the
  products (no change of value on the extended reals) and view each bias as a one-row matrix. The 128 tiles fill both
  result arrays, so each ends as the specification's function of the arguments.
-/
import proofs.«116664_j87969520156813_1_alg».proof.Proof.Gen.KernelIdeal.Value
import proofs.«116664_j87969520156813_1_alg».proof.Proof.KernelTile
import proofs.«116664_j87969520156813_1_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

theorem hz : (![0, 0] : Fin 2 → Nat) = fun _ => 0 := funext fun a => by fin_cases a <;> rfl

/-! ## The two tiles a point writes, at an entry, from the slabs it holds -/

/-- The first result's tile at (p, q). -/
theorem cTile_apply (x0 x1 : Vec Ideal S512x2048 .bf16) (x2 x3 : Vec Ideal S512x128 .f32) (x4 : Vec Ideal S512x1 .f32)
    (x5 x6 x7 x8 x9 x10 x11 x12 : Vec Ideal S128x2048 .bf16) (x13 x14 x15 x16 : Vec Ideal S1x128 .f32) (p : Fin 512) (q : Fin 128) :
    out0_17 (F := Ideal) x0 x1 x2 x3 x4 x5 x6 x7 x8 x9 x10 x11 x12 x13 x14 x15 x16 (ix2 p q)
      = Tile.cell x0 x1 x5 x6 x8 x9 x10 x12 x13 x14 x16 x3 p q * x4 (ix2 p 0)
          + x3 (ix2 p q) * (Cert.LstmSpec.one - x4 (ix2 p 0)) := by
  unfold out0_17
  rw [View.canon_unit_zero hz]
  simp only [View.ld_unit_zero (S := S512x2048) hz, View.ld_unit_zero (S := S128x2048) hz, View.ld_unit_zero (S := S1x128) hz,
    View.ld_unit_zero (S := S512x128) hz, View.ld_unit_zero (S := S512x1) hz]
  rw [Tile.cBlend_apply, Tile.cell_apply, Tile.gateI_apply, Tile.gateF_apply, Tile.slabX_eq, Tile.slabH_eq]
  rfl

/-- The second result's tile at (p, q). -/
theorem hTile_apply (x0 x1 : Vec Ideal S512x2048 .bf16) (x2 x3 : Vec Ideal S512x128 .f32) (x4 : Vec Ideal S512x1 .f32)
    (x5 x6 x7 x8 x9 x10 x11 x12 : Vec Ideal S128x2048 .bf16) (x13 x14 x15 x16 : Vec Ideal S1x128 .f32) (p : Fin 512) (q : Fin 128) :
    out0_18 (F := Ideal) x0 x1 x2 x3 x4 x5 x6 x7 x8 x9 x10 x11 x12 x13 x14 x15 x16 (ix2 p q)
      = Ideal.logistic (Tile.pre x0 x1 x7 x11 x15 p q) * Ideal.tanh (Tile.cell x0 x1 x5 x6 x8 x9 x10 x12 x13 x14 x16 x3 p q)
            * x4 (ix2 p 0)
          + x2 (ix2 p q) * (Cert.LstmSpec.one - x4 (ix2 p 0)) := by
  unfold out0_18
  rw [View.canon_unit_zero hz]
  simp only [View.ld_unit_zero (S := S512x2048) hz, View.ld_unit_zero (S := S128x2048) hz, View.ld_unit_zero (S := S1x128) hz,
    View.ld_unit_zero (S := S512x128) hz, View.ld_unit_zero (S := S512x1) hz]
  rw [Tile.hBlend_apply, Tile.cell_apply, Tile.gateI_apply, Tile.gateF_apply, Tile.prodX_apply, Tile.prodH_apply,
    Tile.slabX_eq, Tile.slabH_eq]
  rfl

/-! ## Which rows and columns a point holds

The printed index maps, decided once over the 128 grid points: with (I, J) the block index of the first result's tile,
the 512-row slabs (input, previous hidden state, mask) sit at block row I, the two previous-state tiles and the second
result's tile at (I, J), the weight slabs at block row J, the bias pieces at block column J. -/

theorem idxRows : ∀ t : Fin cfg0.N,
    win0_0.index t (0 : Fin 2) = win0_17.index t (0 : Fin 2) ∧ win0_0.index t (1 : Fin 2) = 0
    ∧ win0_1.index t (0 : Fin 2) = win0_17.index t (0 : Fin 2) ∧ win0_1.index t (1 : Fin 2) = 0
    ∧ win0_4.index t (0 : Fin 2) = win0_17.index t (0 : Fin 2) ∧ win0_4.index t (1 : Fin 2) = 0 :=
  (by decide +kernel : ∀ t : Fin grid0.N, _)

theorem idxTiles : ∀ t : Fin cfg0.N,
    win0_2.index t (0 : Fin 2) = win0_17.index t (0 : Fin 2) ∧ win0_2.index t (1 : Fin 2) = win0_17.index t (1 : Fin 2)
    ∧ win0_3.index t (0 : Fin 2) = win0_17.index t (0 : Fin 2) ∧ win0_3.index t (1 : Fin 2) = win0_17.index t (1 : Fin 2)
    ∧ win0_18.index t (0 : Fin 2) = win0_17.index t (0 : Fin 2) ∧ win0_18.index t (1 : Fin 2) = win0_17.index t (1 : Fin 2)
    ∧ win0_17.index t (0 : Fin 2) ≤ 7 ∧ win0_17.index t (1 : Fin 2) ≤ 15 :=
  (by decide +kernel : ∀ t : Fin grid0.N, _)

theorem idxWeights : ∀ t : Fin cfg0.N,
    win0_5.index t (0 : Fin 2) = win0_17.index t (1 : Fin 2) ∧ win0_5.index t (1 : Fin 2) = 0
    ∧ win0_6.index t (0 : Fin 2) = win0_17.index t (1 : Fin 2) ∧ win0_6.index t (1 : Fin 2) = 0
    ∧ win0_7.index t (0 : Fin 2) = win0_17.index t (1 : Fin 2) ∧ win0_7.index t (1 : Fin 2) = 0
    ∧ win0_8.index t (0 : Fin 2) = win0_17.index t (1 : Fin 2) ∧ win0_8.index t (1 : Fin 2) = 0
    ∧ win0_9.index t (0 : Fin 2) = win0_17.index t (1 : Fin 2) ∧ win0_9.index t (1 : Fin 2) = 0
    ∧ win0_10.index t (0 : Fin 2) = win0_17.index t (1 : Fin 2) ∧ win0_10.index t (1 : Fin 2) = 0
    ∧ win0_11.index t (0 : Fin 2) = win0_17.index t (1 : Fin 2) ∧ win0_11.index t (1 : Fin 2) = 0
    ∧ win0_12.index t (0 : Fin 2) = win0_17.index t (1 : Fin 2) ∧ win0_12.index t (1 : Fin 2) = 0 :=
  (by decide +kernel : ∀ t : Fin grid0.N, _)

theorem idxBiases : ∀ t : Fin cfg0.N,
    win0_13.index t (0 : Fin 2) = 0 ∧ win0_13.index t (1 : Fin 2) = win0_17.index t (1 : Fin 2)
    ∧ win0_14.index t (0 : Fin 2) = 0 ∧ win0_14.index t (1 : Fin 2) = win0_17.index t (1 : Fin 2)
    ∧ win0_15.index t (0 : Fin 2) = 0 ∧ win0_15.index t (1 : Fin 2) = win0_17.index t (1 : Fin 2)
    ∧ win0_16.index t (0 : Fin 2) = 0 ∧ win0_16.index t (1 : Fin 2) = win0_17.index t (1 : Fin 2) :=
  (by decide +kernel : ∀ t : Fin grid0.N, _)

/-- Every block of the results is some point's. -/
theorem idxOnto : ∀ (I : Fin 8) (J : Fin 16), ∃ t : Fin cfg0.N, win0_17.index t = ![I.val, J.val] :=
  (by decide +kernel : ∀ (I : Fin 8) (J : Fin 16), ∃ t : Fin grid0.N, win0_17.index t = ![I.val, J.val])

/-! ## The arrays as the region finds them

Ten of the seventeen operands are narrowed copies of arguments: on the extended reals the narrowing changes no value, so
each copy IS its argument. The four biases are viewed as one-row matrices: entry (0, q) of the view is entry q. -/

variable (m : (ℓ : Loc nD τ sig) → Buf (Elt Ideal) ℓ) (ρ : Dev nD → PrngReg)

/-- The input, narrowed for the products. -/
theorem entry_x (c : Dev nD) : (V m c main_v0 : S4096x2048.Idx → EReal) = m ((c : Thread nD τ).loc main_arg0) := by
  dsimp only [V, hostOps0]; after_results; rfl
/-- The previous hidden state, narrowed for the products. -/
theorem entry_h (c : Dev nD) : (V m c main_v1 : S4096x2048.Idx → EReal) = m ((c : Thread nD τ).loc main_arg3) := by
  dsimp only [V, hostOps0]; after_results; rfl
/-- The four input-weight matrices, narrowed. -/
theorem entry_Wi (c : Dev nD) : (V m c main_v2 : S2048x2048.Idx → EReal) = m ((c : Thread nD τ).loc main_arg4) := by
  dsimp only [V, hostOps0]; after_results; rfl
theorem entry_Wf (c : Dev nD) : (V m c main_v3 : S2048x2048.Idx → EReal) = m ((c : Thread nD τ).loc main_arg5) := by
  dsimp only [V, hostOps0]; after_results; rfl
theorem entry_Wo (c : Dev nD) : (V m c main_v4 : S2048x2048.Idx → EReal) = m ((c : Thread nD τ).loc main_arg6) := by
  dsimp only [V, hostOps0]; after_results; rfl
theorem entry_Wc (c : Dev nD) : (V m c main_v5 : S2048x2048.Idx → EReal) = m ((c : Thread nD τ).loc main_arg7) := by
  dsimp only [V, hostOps0]; after_results; rfl
/-- The four recurrent-weight matrices, narrowed. -/
theorem entry_Ui (c : Dev nD) : (V m c main_v6 : S2048x2048.Idx → EReal) = m ((c : Thread nD τ).loc main_arg8) := by
  dsimp only [V, hostOps0]; after_results; rfl
theorem entry_Uf (c : Dev nD) : (V m c main_v7 : S2048x2048.Idx → EReal) = m ((c : Thread nD τ).loc main_arg9) := by
  dsimp only [V, hostOps0]; after_results; rfl
theorem entry_Uo (c : Dev nD) : (V m c main_v8 : S2048x2048.Idx → EReal) = m ((c : Thread nD τ).loc main_arg10) := by
  dsimp only [V, hostOps0]; after_results; rfl
theorem entry_Uc (c : Dev nD) : (V m c main_v9 : S2048x2048.Idx → EReal) = m ((c : Thread nD τ).loc main_arg11) := by
  dsimp only [V, hostOps0]; after_results; rfl

/-- A bias viewed as a one-row matrix, read at (0, q), is the bias at q. -/
theorem rowView_apply (b : S2048.Idx → EReal) (j : S1x2048.Idx) (Q : Fin 2048) (hQ : (j 1).val = Q.val) :
    shapeCast S1x2048 b shapeCasts_S2048_S1x2048 j = b (ix1 Q) := by
  refine (shapeCast_addUnit_apply ![2048] b shapeCasts_S2048_S1x2048 j).trans (congrArg b ?_)
  funext a; apply Fin.ext
  match a with
  | ⟨0, _⟩ => exact hQ

theorem entry_bi (c : Dev nD) : (V m c main_v10 : S1x2048.Idx → EReal)
    = shapeCast S1x2048 (m ((c : Thread nD τ).loc main_arg12)) shapeCasts_S2048_S1x2048 := by
  dsimp only [V, hostOps0]; after_results; rfl
theorem entry_bf (c : Dev nD) : (V m c main_v11 : S1x2048.Idx → EReal)
    = shapeCast S1x2048 (m ((c : Thread nD τ).loc main_arg13)) shapeCasts_S2048_S1x2048 := by
  dsimp only [V, hostOps0]; after_results; rfl
theorem entry_bo (c : Dev nD) : (V m c main_v12 : S1x2048.Idx → EReal)
    = shapeCast S1x2048 (m ((c : Thread nD τ).loc main_arg14)) shapeCasts_S2048_S1x2048 := by
  dsimp only [V, hostOps0]; after_results; rfl
theorem entry_bc (c : Dev nD) : (V m c main_v13 : S1x2048.Idx → EReal)
    = shapeCast S1x2048 (m ((c : Thread nD τ).loc main_arg15)) shapeCasts_S2048_S1x2048 := by
  dsimp only [V, hostOps0]; after_results; rfl

/-! ## What a slab holds: each block entry is an argument's entry

A block's coordinate on an axis is the block index times the block's extent plus the coordinate inside the block. With
R = 512·I + p the array row under tile row p and Q = 128·J + q the array column under tile column q: -/

section Reads
variable (c : Dev nD) (t : Fin cfg0.N)

/-- Row p of the input slab is row R of the input. -/
theorem read_x (p : Fin 512) (k : Fin 2048) (R : Fin 4096) (hR : R.val = win0_17.index t (0 : Fin 2) * 512 + p.val) :
    iblk m c 0 t (ix2 p k) = m ((c : Thread nD τ).loc main_arg0) (ix2 R k) := by
  show V m c main_v0 (((cfg0.win 0).blk t).view.emb (ix2 p k)) = _
  rw [entry_x]
  refine congrArg _ (Shape.idx_ext₂ ?_ ?_)
  · show win0_0.index t (0 : Fin 2) * 512 + 1 * p.val = R.val
    have := (idxRows t).1; omega
  · show win0_0.index t (1 : Fin 2) * 2048 + 1 * k.val = k.val
    have := (idxRows t).2.1; omega

/-- Row p of the previous-hidden-state slab (the products' operand) is row R of the previous hidden state. -/
theorem read_h (p : Fin 512) (k : Fin 2048) (R : Fin 4096) (hR : R.val = win0_17.index t (0 : Fin 2) * 512 + p.val) :
    iblk m c 1 t (ix2 p k) = m ((c : Thread nD τ).loc main_arg3) (ix2 R k) := by
  show V m c main_v1 (((cfg0.win 1).blk t).view.emb (ix2 p k)) = _
  rw [entry_h]
  refine congrArg _ (Shape.idx_ext₂ ?_ ?_)
  · show win0_1.index t (0 : Fin 2) * 512 + 1 * p.val = R.val
    have := (idxRows t).2.2.1; omega
  · show win0_1.index t (1 : Fin 2) * 2048 + 1 * k.val = k.val
    have := (idxRows t).2.2.2.1; omega

/-- The previous-hidden-state tile (the blend's operand) at (p, q) is the previous hidden state at (R, Q). -/
theorem read_hTile (p : Fin 512) (q : Fin 128) (R : Fin 4096) (Q : Fin 2048)
    (hR : R.val = win0_17.index t (0 : Fin 2) * 512 + p.val) (hQ : Q.val = win0_17.index t (1 : Fin 2) * 128 + q.val) :
    iblk m c 2 t (ix2 p q) = m ((c : Thread nD τ).loc main_arg3) (ix2 R Q) := by
  show V m c main_arg3 (((cfg0.win 2).blk t).view.emb (ix2 p q)) = _
  rw [V_main_arg3]
  refine congrArg _ (Shape.idx_ext₂ ?_ ?_)
  · show win0_2.index t (0 : Fin 2) * 512 + 1 * p.val = R.val
    have := (idxTiles t).1; omega
  · show win0_2.index t (1 : Fin 2) * 128 + 1 * q.val = Q.val
    have := (idxTiles t).2.1; omega

/-- The previous-cell-state tile at (p, q) is the previous cell state at (R, Q). -/
theorem read_cTile (p : Fin 512) (q : Fin 128) (R : Fin 4096) (Q : Fin 2048)
    (hR : R.val = win0_17.index t (0 : Fin 2) * 512 + p.val) (hQ : Q.val = win0_17.index t (1 : Fin 2) * 128 + q.val) :
    iblk m c 3 t (ix2 p q) = m ((c : Thread nD τ).loc main_arg2) (ix2 R Q) := by
  show V m c main_arg2 (((cfg0.win 3).blk t).view.emb (ix2 p q)) = _
  rw [V_main_arg2]
  refine congrArg _ (Shape.idx_ext₂ ?_ ?_)
  · show win0_3.index t (0 : Fin 2) * 512 + 1 * p.val = R.val
    have := (idxTiles t).2.2.1; omega
  · show win0_3.index t (1 : Fin 2) * 128 + 1 * q.val = Q.val
    have := (idxTiles t).2.2.2.1; omega

/-- Entry p of the mask piece is the mask of row R. -/
theorem read_mask (p : Fin 512) (R : Fin 4096) (hR : R.val = win0_17.index t (0 : Fin 2) * 512 + p.val) :
    iblk m c 4 t (ix2 p 0) = m ((c : Thread nD τ).loc main_arg1) (ix2 R 0) := by
  show V m c main_arg1 (((cfg0.win 4).blk t).view.emb (ix2 p 0)) = _
  rw [V_main_arg1]
  refine congrArg _ (Shape.idx_ext₂ ?_ ?_)
  · show win0_4.index t (0 : Fin 2) * 512 + 1 * p.val = R.val
    have := (idxRows t).2.2.2.2.1; omega
  · show win0_4.index t (1 : Fin 2) * 1 + 1 * 0 = 0
    have := (idxRows t).2.2.2.2.2; omega

/-- Row q of each weight slab is row Q of its matrix. -/
theorem read_Wi (q : Fin 128) (k : Fin 2048) (Q : Fin 2048) (hQ : Q.val = win0_17.index t (1 : Fin 2) * 128 + q.val) :
    iblk m c 5 t (ix2 q k) = m ((c : Thread nD τ).loc main_arg4) (ix2 Q k) := by
  show V m c main_v2 (((cfg0.win 5).blk t).view.emb (ix2 q k)) = _
  rw [entry_Wi]
  refine congrArg _ (Shape.idx_ext₂ ?_ ?_)
  · show win0_5.index t (0 : Fin 2) * 128 + 1 * q.val = Q.val
    have := (idxWeights t).1; omega
  · show win0_5.index t (1 : Fin 2) * 2048 + 1 * k.val = k.val
    have := (idxWeights t).2.1; omega
theorem read_Wf (q : Fin 128) (k : Fin 2048) (Q : Fin 2048) (hQ : Q.val = win0_17.index t (1 : Fin 2) * 128 + q.val) :
    iblk m c 6 t (ix2 q k) = m ((c : Thread nD τ).loc main_arg5) (ix2 Q k) := by
  show V m c main_v3 (((cfg0.win 6).blk t).view.emb (ix2 q k)) = _
  rw [entry_Wf]
  refine congrArg _ (Shape.idx_ext₂ ?_ ?_)
  · show win0_6.index t (0 : Fin 2) * 128 + 1 * q.val = Q.val
    have := (idxWeights t).2.2.1; omega
  · show win0_6.index t (1 : Fin 2) * 2048 + 1 * k.val = k.val
    have := (idxWeights t).2.2.2.1; omega
theorem read_Wo (q : Fin 128) (k : Fin 2048) (Q : Fin 2048) (hQ : Q.val = win0_17.index t (1 : Fin 2) * 128 + q.val) :
    iblk m c 7 t (ix2 q k) = m ((c : Thread nD τ).loc main_arg6) (ix2 Q k) := by
  show V m c main_v4 (((cfg0.win 7).blk t).view.emb (ix2 q k)) = _
  rw [entry_Wo]
  refine congrArg _ (Shape.idx_ext₂ ?_ ?_)
  · show win0_7.index t (0 : Fin 2) * 128 + 1 * q.val = Q.val
    have := (idxWeights t).2.2.2.2.1; omega
  · show win0_7.index t (1 : Fin 2) * 2048 + 1 * k.val = k.val
    have := (idxWeights t).2.2.2.2.2.1; omega
theorem read_Wc (q : Fin 128) (k : Fin 2048) (Q : Fin 2048) (hQ : Q.val = win0_17.index t (1 : Fin 2) * 128 + q.val) :
    iblk m c 8 t (ix2 q k) = m ((c : Thread nD τ).loc main_arg7) (ix2 Q k) := by
  show V m c main_v5 (((cfg0.win 8).blk t).view.emb (ix2 q k)) = _
  rw [entry_Wc]
  refine congrArg _ (Shape.idx_ext₂ ?_ ?_)
  · show win0_8.index t (0 : Fin 2) * 128 + 1 * q.val = Q.val
    have := (idxWeights t).2.2.2.2.2.2.1; omega
  · show win0_8.index t (1 : Fin 2) * 2048 + 1 * k.val = k.val
    have := (idxWeights t).2.2.2.2.2.2.2.1; omega
theorem read_Ui (q : Fin 128) (k : Fin 2048) (Q : Fin 2048) (hQ : Q.val = win0_17.index t (1 : Fin 2) * 128 + q.val) :
    iblk m c 9 t (ix2 q k) = m ((c : Thread nD τ).loc main_arg8) (ix2 Q k) := by
  show V m c main_v6 (((cfg0.win 9).blk t).view.emb (ix2 q k)) = _
  rw [entry_Ui]
  refine congrArg _ (Shape.idx_ext₂ ?_ ?_)
  · show win0_9.index t (0 : Fin 2) * 128 + 1 * q.val = Q.val
    have := (idxWeights t).2.2.2.2.2.2.2.2.1; omega
  · show win0_9.index t (1 : Fin 2) * 2048 + 1 * k.val = k.val
    have := (idxWeights t).2.2.2.2.2.2.2.2.2.1; omega
theorem read_Uf (q : Fin 128) (k : Fin 2048) (Q : Fin 2048) (hQ : Q.val = win0_17.index t (1 : Fin 2) * 128 + q.val) :
    iblk m c 10 t (ix2 q k) = m ((c : Thread nD τ).loc main_arg9) (ix2 Q k) := by
  show V m c main_v7 (((cfg0.win 10).blk t).view.emb (ix2 q k)) = _
  rw [entry_Uf]
  refine congrArg _ (Shape.idx_ext₂ ?_ ?_)
  · show win0_10.index t (0 : Fin 2) * 128 + 1 * q.val = Q.val
    have := (idxWeights t).2.2.2.2.2.2.2.2.2.2.1; omega
  · show win0_10.index t (1 : Fin 2) * 2048 + 1 * k.val = k.val
    have := (idxWeights t).2.2.2.2.2.2.2.2.2.2.2.1; omega
theorem read_Uo (q : Fin 128) (k : Fin 2048) (Q : Fin 2048) (hQ : Q.val = win0_17.index t (1 : Fin 2) * 128 + q.val) :
    iblk m c 11 t (ix2 q k) = m ((c : Thread nD τ).loc main_arg10) (ix2 Q k) := by
  show V m c main_v8 (((cfg0.win 11).blk t).view.emb (ix2 q k)) = _
  rw [entry_Uo]
  refine congrArg _ (Shape.idx_ext₂ ?_ ?_)
  · show win0_11.index t (0 : Fin 2) * 128 + 1 * q.val = Q.val
    have := (idxWeights t).2.2.2.2.2.2.2.2.2.2.2.2.1; omega
  · show win0_11.index t (1 : Fin 2) * 2048 + 1 * k.val = k.val
    have := (idxWeights t).2.2.2.2.2.2.2.2.2.2.2.2.2.1; omega
theorem read_Uc (q : Fin 128) (k : Fin 2048) (Q : Fin 2048) (hQ : Q.val = win0_17.index t (1 : Fin 2) * 128 + q.val) :
    iblk m c 12 t (ix2 q k) = m ((c : Thread nD τ).loc main_arg11) (ix2 Q k) := by
  show V m c main_v9 (((cfg0.win 12).blk t).view.emb (ix2 q k)) = _
  rw [entry_Uc]
  refine congrArg _ (Shape.idx_ext₂ ?_ ?_)
  · show win0_12.index t (0 : Fin 2) * 128 + 1 * q.val = Q.val
    have := (idxWeights t).2.2.2.2.2.2.2.2.2.2.2.2.2.2.1; omega
  · show win0_12.index t (1 : Fin 2) * 2048 + 1 * k.val = k.val
    have := (idxWeights t).2.2.2.2.2.2.2.2.2.2.2.2.2.2.2; omega

/-- Entry q of each bias piece is entry Q of its bias. -/
theorem read_bi (q : Fin 128) (Q : Fin 2048) (hQ : Q.val = win0_17.index t (1 : Fin 2) * 128 + q.val) :
    iblk m c 13 t (ix2 0 q) = m ((c : Thread nD τ).loc main_arg12) (ix1 Q) := by
  show V m c main_v10 (((cfg0.win 13).blk t).view.emb (ix2 0 q)) = _
  rw [entry_bi]
  refine rowView_apply _ _ Q ?_
  show win0_13.index t (1 : Fin 2) * 128 + 1 * q.val = Q.val
  have := (idxBiases t).2.1; omega
theorem read_bf (q : Fin 128) (Q : Fin 2048) (hQ : Q.val = win0_17.index t (1 : Fin 2) * 128 + q.val) :
    iblk m c 14 t (ix2 0 q) = m ((c : Thread nD τ).loc main_arg13) (ix1 Q) := by
  show V m c main_v11 (((cfg0.win 14).blk t).view.emb (ix2 0 q)) = _
  rw [entry_bf]
  refine rowView_apply _ _ Q ?_
  show win0_14.index t (1 : Fin 2) * 128 + 1 * q.val = Q.val
  have := (idxBiases t).2.2.2.1; omega
theorem read_bo (q : Fin 128) (Q : Fin 2048) (hQ : Q.val = win0_17.index t (1 : Fin 2) * 128 + q.val) :
    iblk m c 15 t (ix2 0 q) = m ((c : Thread nD τ).loc main_arg14) (ix1 Q) := by
  show V m c main_v12 (((cfg0.win 15).blk t).view.emb (ix2 0 q)) = _
  rw [entry_bo]
  refine rowView_apply _ _ Q ?_
  show win0_15.index t (1 : Fin 2) * 128 + 1 * q.val = Q.val
  have := (idxBiases t).2.2.2.2.2.1; omega
theorem read_bc (q : Fin 128) (Q : Fin 2048) (hQ : Q.val = win0_17.index t (1 : Fin 2) * 128 + q.val) :
    iblk m c 16 t (ix2 0 q) = m ((c : Thread nD τ).loc main_arg15) (ix1 Q) := by
  show V m c main_v13 (((cfg0.win 16).blk t).view.emb (ix2 0 q)) = _
  rw [entry_bc]
  refine rowView_apply _ _ Q ?_
  show win0_16.index t (1 : Fin 2) * 128 + 1 * q.val = Q.val
  have := (idxBiases t).2.2.2.2.2.2.2; omega

end Reads

/-! ## A point's two tiles are the specification's blocks -/

/-- The specification's first result, of the argument arrays. -/
abbrev cWhole (c : Dev nD) : S4096x2048.Idx → EReal :=
  Cert.LstmSpec.cOut (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg7))
    (m ((c : Thread nD τ).loc main_arg8)) (m ((c : Thread nD τ).loc main_arg9)) (m ((c : Thread nD τ).loc main_arg11))
    (m ((c : Thread nD τ).loc main_arg12)) (m ((c : Thread nD τ).loc main_arg13)) (m ((c : Thread nD τ).loc main_arg15))

/-- The specification's second result, of the argument arrays. -/
abbrev hWhole (c : Dev nD) : S4096x2048.Idx → EReal :=
  Cert.LstmSpec.hOut (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

section Tiles
variable (c : Dev nD) (t : Fin cfg0.N) (p : Fin 512) (q : Fin 128) (R : Fin 4096) (Q : Fin 2048)
  (hR : R.val = win0_17.index t (0 : Fin 2) * 512 + p.val) (hQ : Q.val = win0_17.index t (1 : Fin 2) * 128 + q.val)
include hR hQ

/-- The input gate's pre-activation at tile entry (p, q) is the specification's at (R, Q); likewise the other three. -/
theorem preI_eq : Tile.pre (iblk m c 0 t) (iblk m c 1 t) (iblk m c 5 t) (iblk m c 9 t) (iblk m c 13 t) p q
    = Cert.LstmSpec.pre (m ((c : Thread nD τ).loc main_arg0)) (m ((c : Thread nD τ).loc main_arg3))
        (m ((c : Thread nD τ).loc main_arg4)) (m ((c : Thread nD τ).loc main_arg8)) (m ((c : Thread nD τ).loc main_arg12)) R Q :=
  Tile.pre_eq (iblk m c 0 t) (iblk m c 1 t) (iblk m c 5 t) (iblk m c 9 t) (iblk m c 13 t)
    (m ((c : Thread nD τ).loc main_arg0)) (m ((c : Thread nD τ).loc main_arg3))
    (m ((c : Thread nD τ).loc main_arg4)) (m ((c : Thread nD τ).loc main_arg8)) (m ((c : Thread nD τ).loc main_arg12)) p q R Q
    (fun k => read_x m c t p k R hR) (fun k => read_h m c t p k R hR)
    (fun k => read_Wi m c t q k Q hQ) (fun k => read_Ui m c t q k Q hQ) (read_bi m c t q Q hQ)
theorem preF_eq : Tile.pre (iblk m c 0 t) (iblk m c 1 t) (iblk m c 6 t) (iblk m c 10 t) (iblk m c 14 t) p q
    = Cert.LstmSpec.pre (m ((c : Thread nD τ).loc main_arg0)) (m ((c : Thread nD τ).loc main_arg3))
        (m ((c : Thread nD τ).loc main_arg5)) (m ((c : Thread nD τ).loc main_arg9)) (m ((c : Thread nD τ).loc main_arg13)) R Q :=
  Tile.pre_eq (iblk m c 0 t) (iblk m c 1 t) (iblk m c 6 t) (iblk m c 10 t) (iblk m c 14 t)
    (m ((c : Thread nD τ).loc main_arg0)) (m ((c : Thread nD τ).loc main_arg3))
    (m ((c : Thread nD τ).loc main_arg5)) (m ((c : Thread nD τ).loc main_arg9)) (m ((c : Thread nD τ).loc main_arg13)) p q R Q
    (fun k => read_x m c t p k R hR) (fun k => read_h m c t p k R hR)
    (fun k => read_Wf m c t q k Q hQ) (fun k => read_Uf m c t q k Q hQ) (read_bf m c t q Q hQ)
theorem preO_eq : Tile.pre (iblk m c 0 t) (iblk m c 1 t) (iblk m c 7 t) (iblk m c 11 t) (iblk m c 15 t) p q
    = Cert.LstmSpec.pre (m ((c : Thread nD τ).loc main_arg0)) (m ((c : Thread nD τ).loc main_arg3))
        (m ((c : Thread nD τ).loc main_arg6)) (m ((c : Thread nD τ).loc main_arg10)) (m ((c : Thread nD τ).loc main_arg14)) R Q :=
  Tile.pre_eq (iblk m c 0 t) (iblk m c 1 t) (iblk m c 7 t) (iblk m c 11 t) (iblk m c 15 t)
    (m ((c : Thread nD τ).loc main_arg0)) (m ((c : Thread nD τ).loc main_arg3))
    (m ((c : Thread nD τ).loc main_arg6)) (m ((c : Thread nD τ).loc main_arg10)) (m ((c : Thread nD τ).loc main_arg14)) p q R Q
    (fun k => read_x m c t p k R hR) (fun k => read_h m c t p k R hR)
    (fun k => read_Wo m c t q k Q hQ) (fun k => read_Uo m c t q k Q hQ) (read_bo m c t q Q hQ)
theorem preC_eq : Tile.pre (iblk m c 0 t) (iblk m c 1 t) (iblk m c 8 t) (iblk m c 12 t) (iblk m c 16 t) p q
    = Cert.LstmSpec.pre (m ((c : Thread nD τ).loc main_arg0)) (m ((c : Thread nD τ).loc main_arg3))
        (m ((c : Thread nD τ).loc main_arg7)) (m ((c : Thread nD τ).loc main_arg11)) (m ((c : Thread nD τ).loc main_arg15)) R Q :=
  Tile.pre_eq (iblk m c 0 t) (iblk m c 1 t) (iblk m c 8 t) (iblk m c 12 t) (iblk m c 16 t)
    (m ((c : Thread nD τ).loc main_arg0)) (m ((c : Thread nD τ).loc main_arg3))
    (m ((c : Thread nD τ).loc main_arg7)) (m ((c : Thread nD τ).loc main_arg11)) (m ((c : Thread nD τ).loc main_arg15)) p q R Q
    (fun k => read_x m c t p k R hR) (fun k => read_h m c t p k R hR)
    (fun k => read_Wc m c t q k Q hQ) (fun k => read_Uc m c t q k Q hQ) (read_bc m c t q Q hQ)

/-- The new cell state at tile entry (p, q) is the specification's at (R, Q). -/
theorem cell_eq : Tile.cell (iblk m c 0 t) (iblk m c 1 t) (iblk m c 5 t) (iblk m c 6 t) (iblk m c 8 t) (iblk m c 9 t) (iblk m c 10 t)
      (iblk m c 12 t) (iblk m c 13 t) (iblk m c 14 t) (iblk m c 16 t) (iblk m c 3 t) p q
    = Cert.LstmSpec.cell (m ((c : Thread nD τ).loc main_arg0)) (m ((c : Thread nD τ).loc main_arg3)) (m ((c : Thread nD τ).loc main_arg2))
        (m ((c : Thread nD τ).loc main_arg4)) (m ((c : Thread nD τ).loc main_arg5)) (m ((c : Thread nD τ).loc main_arg7))
        (m ((c : Thread nD τ).loc main_arg8)) (m ((c : Thread nD τ).loc main_arg9)) (m ((c : Thread nD τ).loc main_arg11))
        (m ((c : Thread nD τ).loc main_arg12)) (m ((c : Thread nD τ).loc main_arg13)) (m ((c : Thread nD τ).loc main_arg15)) R Q :=
  Tile.cell_eq (iblk m c 0 t) (iblk m c 1 t) (iblk m c 5 t) (iblk m c 6 t) (iblk m c 8 t) (iblk m c 9 t) (iblk m c 10 t)
    (iblk m c 12 t) (iblk m c 13 t) (iblk m c 14 t) (iblk m c 16 t) (iblk m c 3 t)
    (m ((c : Thread nD τ).loc main_arg0)) (m ((c : Thread nD τ).loc main_arg3)) (m ((c : Thread nD τ).loc main_arg2))
    (m ((c : Thread nD τ).loc main_arg4)) (m ((c : Thread nD τ).loc main_arg5)) (m ((c : Thread nD τ).loc main_arg7))
    (m ((c : Thread nD τ).loc main_arg8)) (m ((c : Thread nD τ).loc main_arg9)) (m ((c : Thread nD τ).loc main_arg11))
    (m ((c : Thread nD τ).loc main_arg12)) (m ((c : Thread nD τ).loc main_arg13)) (m ((c : Thread nD τ).loc main_arg15)) p q R Q
    (preI_eq m c t p q R Q hR hQ) (preF_eq m c t p q R Q hR hQ) (preC_eq m c t p q R Q hR hQ) (read_cTile m c t p q R Q hR hQ)

/-- THE FIRST RESULT'S TILE at (p, q) is the specification's first result at (R, Q). -/
theorem cTile_eq : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = cWhole m c (ix2 R Q) := by
  refine (cTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [cell_eq m c t p q R Q hR hQ, read_mask m c t p R hR, read_cTile m c t p q R Q hR hQ]
  rfl

/-- THE SECOND RESULT'S TILE at (p, q) is the specification's second result at (R, Q). -/
theorem hTile_eq : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = hWhole m c (ix2 R Q) := by
  refine (hTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [cell_eq m c t p q R Q hR hQ, preO_eq m c t p q R Q hR hQ, read_mask m c t p R hR, read_hTile m c t p q R Q hR hQ]
  rfl

end Tiles

/-! ## What each point writes back, and the cover -/

/-- The array index under a tile entry. -/
theorem emb17 (t : Fin cfg0.N) (p : Fin 512) (q : Fin 128) (R : Fin 4096) (Q : Fin 2048)
    (hR : R.val = win0_17.index t (0 : Fin 2) * 512 + p.val) (hQ : Q.val = win0_17.index t (1 : Fin 2) * 128 + q.val) :
    ((cfg0.win 17).blk t).view.emb (ix2 p q) = ix2 R Q :=
  Shape.idx_ext₂ (by show win0_17.index t (0 : Fin 2) * 512 + 1 * p.val = R.val; omega)
    (by show win0_17.index t (1 : Fin 2) * 128 + 1 * q.val = Q.val; omega)
theorem emb18 (t : Fin cfg0.N) (p : Fin 512) (q : Fin 128) (R : Fin 4096) (Q : Fin 2048)
    (hR : R.val = win0_17.index t (0 : Fin 2) * 512 + p.val) (hQ : Q.val = win0_17.index t (1 : Fin 2) * 128 + q.val) :
    ((cfg0.win 18).blk t).view.emb (ix2 p q) = ix2 R Q :=
  Shape.idx_ext₂ (by show win0_18.index t (0 : Fin 2) * 512 + 1 * p.val = R.val; have := (idxTiles t).2.2.2.2.1; omega)
    (by show win0_18.index t (1 : Fin 2) * 128 + 1 * q.val = Q.val; have := (idxTiles t).2.2.2.2.2.1; omega)

/-- What point `t` writes back to the first result is block `t` of the specification's first result. -/
theorem cFlushed_eq (c : Dev nD) (t : Fin cfg0.N) :
    (dats m 0 c).flushed 17 t = ((cfg0.win 17).blk t).view.read (Elt Ideal) (cWhole m c) := by
  rw [Value.flushed17]
  funext j
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = cWhole m c (((cfg0.win 17).blk t).view.emb j)
  have key : ∀ j : S512x128.Idx, out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = cWhole m c (((cfg0.win 17).blk t).view.emb j) := by
    intro j
    obtain ⟨p, q, rfl⟩ : ∃ (p : Fin 512) (q : Fin 128), j = ix2 p q := ⟨j 0, j 1, eq_ix2 j⟩
    have hp := p.isLt; have hq := q.isLt
    have hI := (idxTiles t).2.2.2.2.2.2.1; have hJ := (idxTiles t).2.2.2.2.2.2.2
    rw [emb17 t p q ⟨win0_17.index t (0 : Fin 2) * 512 + p.val, by omega⟩ ⟨win0_17.index t (1 : Fin 2) * 128 + q.val, by omega⟩ rfl rfl]
    exact cTile_eq m c t p q _ _ rfl rfl
  exact key j

/-- What point `t` writes back to the second result is block `t` of the specification's second result. -/
theorem hFlushed_eq (c : Dev nD) (t : Fin cfg0.N) :
    (dats m 0 c).flushed 18 t = ((cfg0.win 18).blk t).view.read (Elt Ideal) (hWhole m c) := by
  rw [Value.flushed18]
  funext j
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = hWhole m c (((cfg0.win 18).blk t).view.emb j)
  have key : ∀ j : S512x128.Idx, out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j = hWhole m c (((cfg0.win 18).blk t).view.emb j) := by
    intro j
    obtain ⟨p, q, rfl⟩ : ∃ (p : Fin 512) (q : Fin 128), j = ix2 p q := ⟨j 0, j 1, eq_ix2 j⟩
    have hp := p.isLt; have hq := q.isLt
    have hI := (idxTiles t).2.2.2.2.2.2.1; have hJ := (idxTiles t).2.2.2.2.2.2.2
    rw [emb18 t p q ⟨win0_17.index t (0 : Fin 2) * 512 + p.val, by omega⟩ ⟨win0_17.index t (1 : Fin 2) * 128 + q.val, by omega⟩ rfl rfl]
    exact hTile_eq m c t p q _ _ rfl rfl
  exact key j

/-- An index of a result is in point `t`'s block iff each coordinate is in the block's range on its axis. -/
theorem mem_blk17 (t : Fin cfg0.N) (i : S4096x2048.Idx) :
    i ∈ ((cfg0.win 17).blk t).view.set ↔ ∀ a : Fin 2, win0_17.index t a * S512x128.size a ≤ (i a).val ∧ (i a).val < win0_17.index t a * S512x128.size a + S512x128.size a := by
  show i ∈ ((View.whole main_v14_0).slice (win0_17.rect t)).set ↔ _
  rw [View.set_slice_whole, Rect.mem_set_unit]
  exact Iff.rfl
theorem mem_blk18 (t : Fin cfg0.N) (i : S4096x2048.Idx) :
    i ∈ ((cfg0.win 18).blk t).view.set ↔ ∀ a : Fin 2, win0_18.index t a * S512x128.size a ≤ (i a).val ∧ (i a).val < win0_18.index t a * S512x128.size a + S512x128.size a := by
  show i ∈ ((View.whole main_v14_1).slice (win0_18.rect t)).set ↔ _
  rw [View.set_slice_whole, Rect.mem_set_unit]
  exact Iff.rfl

/-- THE 128 TILES FILL A RESULT: entry (r, s) is in the block of the point at block index (r / 512, s / 128). -/
theorem cover17 (i : S4096x2048.Idx) : ∃ t : Fin cfg0.N, (cfg0.win 17).flush t = true ∧ i ∈ ((cfg0.win 17).blk t).view.set := by
  have hi0 : (i 0).val < 4096 := (i 0).isLt
  have hi1 : (i 1).val < 2048 := (i 1).isLt
  obtain ⟨t, ht⟩ := idxOnto ⟨(i 0).val / 512, by omega⟩ ⟨(i 1).val / 128, by omega⟩
  have q0 : win0_17.index t (0 : Fin 2) = (i 0).val / 512 := congrFun ht 0
  have q1 : win0_17.index t (1 : Fin 2) = (i 1).val / 128 := congrFun ht 1
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 128 ≤ (i 1).val ∧ (i 1).val < win0_17.index t (1 : Fin 2) * 128 + 128; omega
theorem cover18 (i : S4096x2048.Idx) : ∃ t : Fin cfg0.N, (cfg0.win 18).flush t = true ∧ i ∈ ((cfg0.win 18).blk t).view.set := by
  have hi0 : (i 0).val < 4096 := (i 0).isLt
  have hi1 : (i 1).val < 2048 := (i 1).isLt
  obtain ⟨t, ht⟩ := idxOnto ⟨(i 0).val / 512, by omega⟩ ⟨(i 1).val / 128, by omega⟩
  have q0 : win0_17.index t (0 : Fin 2) = (i 0).val / 512 := congrFun ht 0
  have q1 : win0_17.index t (1 : Fin 2) = (i 1).val / 128 := congrFun ht 1
  have e0 := (idxTiles t).2.2.2.2.1; have e1 := (idxTiles t).2.2.2.2.2.1
  refine ⟨t, flush0_18 t, ?_⟩
  rw [mem_blk18]
  intro a
  match a with
  | ⟨0, _⟩ => show win0_18.index t (0 : Fin 2) * 512 ≤ (i 0).val ∧ (i 0).val < win0_18.index t (0 : Fin 2) * 512 + 512; omega
  | ⟨1, _⟩ => show win0_18.index t (1 : Fin 2) * 128 ≤ (i 1).val ∧ (i 1).val < win0_18.index t (1 : Fin 2) * 128 + 128; omega

/-! ## The two results after the run -/

theorem cFinal (c : Dev nD) : (dats m 0 c).arrAt 17 cfg0.N = cWhole m c :=
  (dats m 0 c).arrAt_eq_of_cover 17 (cWhole m c) (fun t _ => cFlushed_eq m c t) cover17
theorem hFinal (c : Dev nD) : (dats m 0 c).arrAt 18 cfg0.N = hWhole m c :=
  (dats m 0 c).arrAt_eq_of_cover 18 (hWhole m c) (fun t _ => hFlushed_eq m c t) cover18

/-- THE KERNEL'S RUN: it ends with the two results at the specification's functions of the arguments, the arguments unchanged. -/
theorem run : θ_run defs (onTc (τ := τ) (main (F := Ideal))) ⟨m, fun _ => 0, ρ⟩ fun r => ∀ c : Dev nD,
      r.2.mem ((c : Thread nD τ).loc main_v14_0) = cWhole m c
      ∧ r.2.mem ((c : Thread nD τ).loc main_v14_1) = hWhole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (cFinal m c), (h c).2.1.trans (hFinal m c), (h c).2.2⟩)
    (Value.run_blocks m ρ)

end Cert.KernelIdeal.Whole

end
-- ==== Proof.RefValue.lean ====
/-
  The reference, stage by stage, is the specification.

  The reference stacks the four gates' weight matrices into one 8192 × 2048 matrix (input, forget, output, candidate, in
  that order), likewise the recurrent weights and the biases, forms all four pre-activations at once as a
  4096 × 8192 array  x · Wᵀ + h · Uᵀ + b,  and cuts it back into four 4096 × 2048 slices at column offsets 0, 2048,
  4096 and 6144. Row 2048·g + q of a stack is row q of its g-th piece, so entry (r, 2048·g + q) of the big array is
  gate g's pre-activation at (r, q), term for term: the same two sums over the 2048 features and the same bias entry.
  jax spells the logistic function as 1 / (1 + e^(-z)) with the literal 1.0; on the extended reals that is the logistic
  function itself. Everything after the gates is entrywise and reads as written.
-/
import proofs.«116664_j87969520156813_1_alg».proof.Proof.Gen.ReferenceIdeal.Read
import proofs.«116664_j87969520156813_1_alg».proof.Proof.Spec
import Idealize.ShloMosaic.Lib.Pipeline.Value
import Idealize.ShloMosaic.Lib.ValueIdx
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The contents of a batch-by-feature array, of the mask column, of one weight matrix and of one bias, at the ideal values. -/
abbrev Act : Type := (⟨S4096x2048, .f32⟩ : BufTy).Contents (Elt Ideal)
abbrev Msk : Type := (⟨S4096x1, .f32⟩ : BufTy).Contents (Elt Ideal)
abbrev Mat : Type := (⟨S2048x2048, .f32⟩ : BufTy).Contents (Elt Ideal)
abbrev Bia : Type := (⟨S2048, .f32⟩ : BufTy).Contents (Elt Ideal)

/-- The g-th of four things: a gate's own piece of a stack (0 input, 1 forget, 2 output, 3 candidate). -/
def pick {α : Type} (g : Fin 4) (a b c d : α) : α := match g with | 0 => a | 1 => b | 2 => c | 3 => d

/-- Where the g-th piece starts along the stacked axis. -/
def off (g : Fin 4) : Nat := match g with | 0 => 0 | 1 => 2048 | 2 => 4096 | 3 => 6144

/-- Row `off g + q` of four matrices stacked along their rows is row `q` of the g-th. -/
theorem stackMat_apply (a b c d : Mat) (g : Fin 4) (q k : Fin 2048) (j : S8192x2048.Idx)
    (h0 : (j 0).val = off g + q.val) (h1 : (j 1).val = k.val) :
    concatenate S8192x2048 0 [⟨S2048x2048, a⟩, ⟨S2048x2048, b⟩, ⟨S2048x2048, c⟩, ⟨S2048x2048, d⟩]
        concatenates_S2048x2048_S2048x2048_S2048x2048_S2048x2048_S8192x2048_d0 j
      = pick g a b c d (ix2 q k) := by
  have hi : ∀ e : Fin S2048x2048.rank, e.cast (rfl : S2048x2048.rank = S8192x2048.rank) ≠ (0 : Fin S8192x2048.rank) →
      ((ix2 q k : S2048x2048.Idx) e).val = (j (e.cast rfl)).val := fun e he => by
    match e, he with
    | ⟨0, _⟩, he => exact absurd rfl he
    | ⟨1, _⟩, _ => exact h1.symm
  match g, h0 with
  | 0, h0 => exact concatenate_apply_piece 0 _ _ j 0 (by show (0 : ℕ) < 4; decide) S2048x2048 a rfl rfl 0 rfl (ix2 q k) hi h0.symm
  | 1, h0 => exact concatenate_apply_piece 0 _ _ j 1 (by show (1 : ℕ) < 4; decide) S2048x2048 b rfl rfl 2048 rfl (ix2 q k) hi h0.symm
  | 2, h0 => exact concatenate_apply_piece 0 _ _ j 2 (by show (2 : ℕ) < 4; decide) S2048x2048 c rfl rfl 4096 rfl (ix2 q k) hi h0.symm
  | 3, h0 => exact concatenate_apply_piece 0 _ _ j 3 (by show (3 : ℕ) < 4; decide) S2048x2048 d rfl rfl 6144 rfl (ix2 q k) hi h0.symm

/-- Entry `off g + q` of four vectors laid end to end is entry `q` of the g-th. -/
theorem stackVec_apply (a b c d : Bia) (g : Fin 4) (q : Fin 2048) (j : S8192.Idx) (h0 : (j 0).val = off g + q.val) :
    concatenate S8192 0 [⟨S2048, a⟩, ⟨S2048, b⟩, ⟨S2048, c⟩, ⟨S2048, d⟩] concatenates_S2048_S2048_S2048_S2048_S8192_d0 j
      = pick g a b c d (ix1 q) := by
  have hi : ∀ e : Fin S2048.rank, e.cast (rfl : S2048.rank = S8192.rank) ≠ (0 : Fin S8192.rank) →
      ((ix1 q : S2048.Idx) e).val = (j (e.cast rfl)).val := fun e he => by
    match e, he with
    | ⟨0, _⟩, he => exact absurd rfl he
  match g, h0 with
  | 0, h0 => exact concatenate_apply_piece 0 _ _ j 0 (by show (0 : ℕ) < 4; decide) S2048 a rfl rfl 0 rfl (ix1 q) hi h0.symm
  | 1, h0 => exact concatenate_apply_piece 0 _ _ j 1 (by show (1 : ℕ) < 4; decide) S2048 b rfl rfl 2048 rfl (ix1 q) hi h0.symm
  | 2, h0 => exact concatenate_apply_piece 0 _ _ j 2 (by show (2 : ℕ) < 4; decide) S2048 c rfl rfl 4096 rfl (ix1 q) hi h0.symm
  | 3, h0 => exact concatenate_apply_piece 0 _ _ j 3 (by show (3 : ℕ) < 4; decide) S2048 d rfl rfl 6144 rfl (ix1 q) hi h0.symm

variable (x0 x2 x3 : Act) (x1 : Msk) (x4 x5 x6 x7 x8 x9 x10 x11 : Mat) (x12 x13 x14 x15 : Bia)

/-- THE STACKED PRE-ACTIVATIONS: entry (r, off g + q) of the 4096 × 8192 array is gate g's pre-activation at (r, q). -/
theorem stacked_apply (g : Fin 4) (r : Fin 4096) (q : Fin 2048) (J : S4096x8192.Idx)
    (h0 : (J 0).val = r.val) (h1 : (J 1).val = off g + q.val) :
    val_main_v10 (F := Ideal) x0 x3 x4 x5 x6 x7 x8 x9 x10 x11 x12 x13 x14 x15 J
      = Cert.LstmSpec.pre x0 x3 (pick g x4 x5 x6 x7) (pick g x8 x9 x10 x11) (pick g x12 x13 x14 x15) r q := by
  rw [val_main_v10_apply, val_main_v7_apply, val_main_v4_apply, val_main_v6_apply, val_main_v9_apply, val_main_v8_apply]
  have eX : ∀ k : Fin 2048, lidx_main_v4 J k = ix2 r k := fun k => funext fun a => Fin.ext (by
    match a with
    | ⟨0, _⟩ => exact h0
    | ⟨1, _⟩ => rfl)
  have eH : ∀ k : Fin 2048, lidx_main_v6 J k = ix2 r k := fun k => funext fun a => Fin.ext (by
    match a with
    | ⟨0, _⟩ => exact h0
    | ⟨1, _⟩ => rfl)
  have eW : ∀ k : Fin 2048, val_main_v3 (F := Ideal) x4 x5 x6 x7 (ridx_main_v4 J k) = pick g x4 x5 x6 x7 (ix2 q k) := fun k => by
    rw [val_main_v3_apply]; exact stackMat_apply x4 x5 x6 x7 g q k _ h1 rfl
  have eU : ∀ k : Fin 2048, val_main_v5 (F := Ideal) x8 x9 x10 x11 (ridx_main_v6 J k) = pick g x8 x9 x10 x11 (ix2 q k) := fun k => by
    rw [val_main_v5_apply]; exact stackMat_apply x8 x9 x10 x11 g q k _ h1 rfl
  have eB : val_main_v2 (F := Ideal) x12 x13 x14 x15 (idx_main_v8 (idx_main_v9 J)) = pick g x12 x13 x14 x15 (ix1 q) :=
    stackVec_apply x12 x13 x14 x15 g q _ h1
  simp only [eX, eH, eW, eU, eB]
  rfl

/-- The four slices are the four gates' pre-activations. -/
theorem sliceI_apply (r : Fin 4096) (q : Fin 2048) :
    val_main_v11 (F := Ideal) x0 x3 x4 x5 x6 x7 x8 x9 x10 x11 x12 x13 x14 x15 (ix2 r q) = Cert.LstmSpec.pre x0 x3 x4 x8 x12 r q := by
  rw [val_main_v11_apply]; exact stacked_apply x0 x3 x4 x5 x6 x7 x8 x9 x10 x11 x12 x13 x14 x15 0 r q _ rfl (Nat.zero_add _).symm
theorem sliceF_apply (r : Fin 4096) (q : Fin 2048) :
    val_main_v12 (F := Ideal) x0 x3 x4 x5 x6 x7 x8 x9 x10 x11 x12 x13 x14 x15 (ix2 r q) = Cert.LstmSpec.pre x0 x3 x5 x9 x13 r q := by
  rw [val_main_v12_apply]; exact stacked_apply x0 x3 x4 x5 x6 x7 x8 x9 x10 x11 x12 x13 x14 x15 1 r q _ rfl rfl
theorem sliceO_apply (r : Fin 4096) (q : Fin 2048) :
    val_main_v13 (F := Ideal) x0 x3 x4 x5 x6 x7 x8 x9 x10 x11 x12 x13 x14 x15 (ix2 r q) = Cert.LstmSpec.pre x0 x3 x6 x10 x14 r q := by
  rw [val_main_v13_apply]; exact stacked_apply x0 x3 x4 x5 x6 x7 x8 x9 x10 x11 x12 x13 x14 x15 2 r q _ rfl rfl
theorem sliceC_apply (r : Fin 4096) (q : Fin 2048) :
    val_main_v14 (F := Ideal) x0 x3 x4 x5 x6 x7 x8 x9 x10 x11 x12 x13 x14 x15 (ix2 r q) = Cert.LstmSpec.pre x0 x3 x7 x11 x15 r q := by
  rw [val_main_v14_apply]; exact stacked_apply x0 x3 x4 x5 x6 x7 x8 x9 x10 x11 x12 x13 x14 x15 3 r q _ rfl rfl

/-- jax's spelling of the logistic function, with the literal 1.0, is the logistic function. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

/-- The three gates through the logistic function. -/
theorem sigI_apply (r : Fin 4096) (q : Fin 2048) :
    val_main_v20 (F := Ideal) x0 x3 x4 x5 x6 x7 x8 x9 x10 x11 x12 x13 x14 x15 (ix2 r q) = Ideal.logistic (Cert.LstmSpec.pre x0 x3 x4 x8 x12 r q) := by
  have e17 : val_main_v17 (F := Ideal) (ix2 r q) = Ideal.ofBits .f32 0x3F800000#32 := by rw [val_main_v17_apply]; rfl
  have e19 : val_main_v19 (F := Ideal) (ix2 r q) = Ideal.ofBits .f32 0x3F800000#32 := by rw [val_main_v19_apply]; rfl
  show Ideal.div (val_main_v19 (F := Ideal) (ix2 r q))
    (val_main_v17 (F := Ideal) (ix2 r q) + Ideal.exp (-(val_main_v11 (F := Ideal) x0 x3 x4 x5 x6 x7 x8 x9 x10 x11 x12 x13 x14 x15 (ix2 r q)))) = _
  rw [e17, e19, sliceI_apply, logistic_spelled]
theorem sigF_apply (r : Fin 4096) (q : Fin 2048) :
    val_main_v26 (F := Ideal) x0 x3 x4 x5 x6 x7 x8 x9 x10 x11 x12 x13 x14 x15 (ix2 r q) = Ideal.logistic (Cert.LstmSpec.pre x0 x3 x5 x9 x13 r q) := by
  have e23 : val_main_v23 (F := Ideal) (ix2 r q) = Ideal.ofBits .f32 0x3F800000#32 := by rw [val_main_v23_apply]; rfl
  have e25 : val_main_v25 (F := Ideal) (ix2 r q) = Ideal.ofBits .f32 0x3F800000#32 := by rw [val_main_v25_apply]; rfl
  show Ideal.div (val_main_v25 (F := Ideal) (ix2 r q))
    (val_main_v23 (F := Ideal) (ix2 r q) + Ideal.exp (-(val_main_v12 (F := Ideal) x0 x3 x4 x5 x6 x7 x8 x9 x10 x11 x12 x13 x14 x15 (ix2 r q)))) = _
  rw [e23, e25, sliceF_apply, logistic_spelled]
theorem sigO_apply (r : Fin 4096) (q : Fin 2048) :
    val_main_v32 (F := Ideal) x0 x3 x4 x5 x6 x7 x8 x9 x10 x11 x12 x13 x14 x15 (ix2 r q) = Ideal.logistic (Cert.LstmSpec.pre x0 x3 x6 x10 x14 r q) := by
  have e29 : val_main_v29 (F := Ideal) (ix2 r q) = Ideal.ofBits .f32 0x3F800000#32 := by rw [val_main_v29_apply]; rfl
  have e31 : val_main_v31 (F := Ideal) (ix2 r q) = Ideal.ofBits .f32 0x3F800000#32 := by rw [val_main_v31_apply]; rfl
  show Ideal.div (val_main_v31 (F := Ideal) (ix2 r q))
    (val_main_v29 (F := Ideal) (ix2 r q) + Ideal.exp (-(val_main_v13 (F := Ideal) x0 x3 x4 x5 x6 x7 x8 x9 x10 x11 x12 x13 x14 x15 (ix2 r q)))) = _
  rw [e29, e31, sliceO_apply, logistic_spelled]

/-- The new cell state, before the blend. -/
theorem cell_apply (r : Fin 4096) (q : Fin 2048) :
    val_main_v36 (F := Ideal) x0 x2 x3 x4 x5 x6 x7 x8 x9 x10 x11 x12 x13 x14 x15 (ix2 r q)
      = Cert.LstmSpec.cell x0 x3 x2 x4 x5 x7 x8 x9 x11 x12 x13 x15 r q := by
  show val_main_v20 (F := Ideal) x0 x3 x4 x5 x6 x7 x8 x9 x10 x11 x12 x13 x14 x15 (ix2 r q) * Ideal.tanh (val_main_v14 (F := Ideal) x0 x3 x4 x5 x6 x7 x8 x9 x10 x11 x12 x13 x14 x15 (ix2 r q))
    + val_main_v26 (F := Ideal) x0 x3 x4 x5 x6 x7 x8 x9 x10 x11 x12 x13 x14 x15 (ix2 r q) * x2 (ix2 r q) = _
  rw [sigI_apply, sigF_apply, sliceC_apply]
  rfl

/-- The mask column broadcast across the features reads the row's mask. -/
theorem maskRow (i : S4096x2048.Idx) : idx_main_v39 i = ix2 (i 0) 0 :=
  funext fun a => Fin.ext (by
    match a with
    | ⟨0, _⟩ => rfl
    | ⟨1, _⟩ => rfl)

/-- THE FIRST RESULT is the specification's blended cell state. -/
theorem cOut_eq : val_main_v45 (F := Ideal) x0 x1 x2 x3 x4 x5 x6 x7 x8 x9 x10 x11 x12 x13 x14 x15 = Cert.LstmSpec.cOut x0 x1 x2 x3 x4 x5 x7 x8 x9 x11 x12 x13 x15 := by
  funext i
  obtain ⟨r, q, rfl⟩ : ∃ (r : Fin 4096) (q : Fin 2048), i = ix2 r q := ⟨i 0, i 1, eq_ix2 i⟩
  have e39 : val_main_v39 (F := Ideal) x1 (ix2 r q) = x1 (ix2 r 0) := by rw [val_main_v39_apply, maskRow]; rfl
  have e43 : val_main_v43 (F := Ideal) x1 (ix2 r q) = Ideal.ofBits .f32 0x3F800000#32 - x1 (ix2 r 0) := by
    rw [val_main_v43_apply]
    show val_main_v41 (F := Ideal) (idx_main_v43 (ix2 r q)) - x1 (idx_main_v43 (ix2 r q)) = _
    rw [val_main_v41_apply, show idx_main_v43 (ix2 r q) = ix2 r 0 from maskRow (ix2 r q)]
    rfl
  show val_main_v36 (F := Ideal) x0 x2 x3 x4 x5 x6 x7 x8 x9 x10 x11 x12 x13 x14 x15 (ix2 r q) * val_main_v39 (F := Ideal) x1 (ix2 r q)
    + x2 (ix2 r q) * val_main_v43 (F := Ideal) x1 (ix2 r q) = _
  rw [cell_apply, e39, e43]
  rfl

/-- THE SECOND RESULT is the specification's blended hidden state. -/
theorem hOut_eq : val_main_v52 (F := Ideal) x0 x1 x2 x3 x4 x5 x6 x7 x8 x9 x10 x11 x12 x13 x14 x15 = Cert.LstmSpec.hOut x0 x1 x2 x3 x4 x5 x6 x7 x8 x9 x10 x11 x12 x13 x14 x15 := by
  funext i
  obtain ⟨r, q, rfl⟩ : ∃ (r : Fin 4096) (q : Fin 2048), i = ix2 r q := ⟨i 0, i 1, eq_ix2 i⟩
  have e46 : val_main_v46 (F := Ideal) x1 (ix2 r q) = x1 (ix2 r 0) := by
    rw [val_main_v46_apply, show idx_main_v46 (ix2 r q) = ix2 r 0 from maskRow (ix2 r q)]
  have e50 : val_main_v50 (F := Ideal) x1 (ix2 r q) = Ideal.ofBits .f32 0x3F800000#32 - x1 (ix2 r 0) := by
    rw [val_main_v50_apply]
    show val_main_v48 (F := Ideal) (idx_main_v50 (ix2 r q)) - x1 (idx_main_v50 (ix2 r q)) = _
    rw [val_main_v48_apply, show idx_main_v50 (ix2 r q) = ix2 r 0 from maskRow (ix2 r q)]
    rfl
  show val_main_v32 (F := Ideal) x0 x3 x4 x5 x6 x7 x8 x9 x10 x11 x12 x13 x14 x15 (ix2 r q) * Ideal.tanh (val_main_v36 (F := Ideal) x0 x2 x3 x4 x5 x6 x7 x8 x9 x10 x11 x12 x13 x14 x15 (ix2 r q))
      * val_main_v46 (F := Ideal) x1 (ix2 r q)
    + x3 (ix2 r q) * val_main_v50 (F := Ideal) x1 (ix2 r q) = _
  rw [sigO_apply, cell_apply, e46, e50]
  rfl

end Cert.ReferenceIdeal.RefValue

end
-- ==== Proof.lean ====
/-
  An LSTM cell with a per-row blend mask: the kernel computes it tile by tile, the reference on the four gates' weights
  stacked, and on the extended reals both compute the same function of the sixteen arguments, entry by entry.

  For batch row r and hidden column q each gate's pre-activation is  Σ_k x(r,k)·W(q,k) + Σ_k h(r,k)·U(q,k) + b(q);
  the cell state is σ(i)·tanh(c) + σ(f)·c_prev, the hidden state σ(o)·tanh(cell), and each result keeps the previous
  state where the row's mask is 0 and takes the new one where it is 1 (Proof/Spec.lean).

  The kernel: a grid of 8 × 16 points, each forming the four pre-activations of one 512 × 128 tile by eight products of
  512 × 2048 slabs against 128 × 2048 weight slabs (the right operand contracted on its last axis, into a zero
  accumulator), then the entrywise part; the operands of the products are narrowed to a shorter float format first, which
  changes no value here (Proof/KernelTile.lean for a tile, Proof/KernelValue.lean for the arrays).
  The reference: one 4096 × 8192 array of all four pre-activations from the stacked weights, cut back into four slices;
  the logistic function spelled 1 / (1 + e^(-z)) (Proof/RefValue.lean).
  The two sums over the 2048 features run over the same index in the same order on both sides, so no law of arithmetic
  is used, and the precondition (finite inputs) is never opened.

  The frames are the generated ones (the reference's is its generated run with the results dropped); the idealization
  rewrote no operation, so there is nothing to preserve.
-/
import proofs.«116664_j87969520156813_1_alg».proof.Defs
import proofs.«116664_j87969520156813_1_alg».proof.Proof.Gen.Kernel
import proofs.«116664_j87969520156813_1_alg».proof.Proof.Gen.Kernel.Skeleton
import proofs.«116664_j87969520156813_1_alg».proof.Proof.Gen.Kernel.Launch
import proofs.«116664_j87969520156813_1_alg».proof.Proof.Gen.Kernel.Points
import proofs.«116664_j87969520156813_1_alg».proof.Proof.Gen.Kernel.Frame
import proofs.«116664_j87969520156813_1_alg».proof.Proof.Gen.KernelIdeal
import proofs.«116664_j87969520156813_1_alg».proof.Proof.Gen.KernelIdeal.Skeleton
import proofs.«116664_j87969520156813_1_alg».proof.Proof.Gen.KernelIdeal.Launch
import proofs.«116664_j87969520156813_1_alg».proof.Proof.Gen.KernelIdeal.Points
import proofs.«116664_j87969520156813_1_alg».proof.Proof.Gen.KernelIdeal.Frame
import proofs.«116664_j87969520156813_1_alg».proof.Proof.Gen.ReferenceIdeal
import proofs.«116664_j87969520156813_1_alg».proof.Proof.Gen.KernelIdeal.Value
import proofs.«116664_j87969520156813_1_alg».proof.Proof.Gen.ReferenceIdeal.Run
import proofs.«116664_j87969520156813_1_alg».proof.Proof.Gen.ReferenceIdeal.Read
import proofs.«116664_j87969520156813_1_alg».proof.Proof.Gen.Pre_finite_inputs
import proofs.«116664_j87969520156813_1_alg».proof.Proof.KernelValue
import proofs.«116664_j87969520156813_1_alg».proof.Proof.RefValue
import Idealize.ShloMosaic.Adequacy
import Idealize.ShloMosaic.Init

noncomputable section

namespace Cert.Proof

open Idealize.ShloMosaic Idealize.SL.Sem

/-- Both idealized programs end with the specification's two results of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.cWhole m c, fun c => Cert.KernelIdeal.Whole.hWhole m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15⟩ := hagree c
    rw [Cert.ReferenceIdeal.Read.val_main_v45_eq, Cert.ReferenceIdeal.RefValue.cOut_eq,
      e0, e1, e2, e3, e4, e5, e7, e8, e9, e11, e12, e13, e15]
  · obtain ⟨e0, e1, e2, e3, e4, e5, e6, e7, e8, e9, e10, e11, e12, e13, e14, e15⟩ := hagree c
    rw [Cert.ReferenceIdeal.Read.val_main_v52_eq, Cert.ReferenceIdeal.RefValue.hOut_eq,
      e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
